-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512 : Shape := ⟨2, ![16, 512]⟩
abbrev S16x2048x1024 : Shape := ⟨3, ![16, 2048, 1024]⟩
abbrev S_ : Shape := ⟨0, ![]⟩

class Facts : Prop where
  bcast_S_S16x512 : S_.BroadcastsInDim S16x512 (![] : Fin 0 → Fin S16x512.rank)
  reducesTo_S16x512_S_d0_1 : S16x512.ReducesTo [0, 1] S_
  h_S_ : 0 < S_.numel
  bcast_S_S16x2048x1024 : S_.BroadcastsInDim S16x2048x1024 (![] : Fin 0 → Fin S16x2048x1024.rank)
  reducesTo_S16x2048x1024_S_d0_1_2 : S16x2048x1024.ReducesTo [0, 1, 2] S_

variable [Facts]

def fn {F : FTy → Type} [FloatOps F] (main_arg0 : FVec F S16x512 .f32) (main_arg1 : FVec F S16x512 .f32) (main_arg2 : FVec F S16x2048x1024 .f32) : IVec S_ 1 :=
  let main_v0 : FVec F S16x512 .f32 := Host.absf main_arg0
  let main_cst : FVec F S_ .f32 := constant S_ .f32 0x7F800000#32
  let main_v1 : FVec F S16x512 .f32 := broadcastInDim S16x512 ![] bcast_S_S16x512 main_cst
  let main_v2 : IVec S16x512 1 := cmpf .olt main_v0 main_v1
  let main_c : IVec S_ 1 := constantI S_ 1 1#1
  let main_v3 : IVec S_ 1 := (fun x v => Host.reduce IntOp.andi x v reducesTo_S16x512_S_d0_1 h_S_) main_v2 main_c
  let main_v4 : FVec F S16x512 .f32 := Host.absf main_arg1
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  let main_v9 : FVec F S16x2048x1024 .f32 := Host.absf main_arg2
  let main_cst_2 : FVec F S_ .f32 := constant S_ .f32 0x7F800000#32
  let main_v10 : FVec F S16x2048x1024 .f32 := broadcastInDim S16x2048x1024 ![] bcast_S_S16x2048x1024 main_cst_2
  let main_v11 : IVec S16x2048x1024 1 := cmpf .olt main_v9 main_v10
  let main_c_3 : IVec S_ 1 := constantI S_ 1 1#1
  let main_v12 : IVec S_ 1 := (fun x v => Host.reduce IntOp.andi x v reducesTo_S16x2048x1024_S_d0_1_2 h_S_) main_v11 main_c_3
  let main_v13 : IVec S_ 1 := andi main_v8 main_v12
  main_v13
-- ==== Kernel.lean ====
abbrev S16x512 : Shape := ⟨2, ![16, 512]⟩
abbrev S16x2048x1024 : Shape := ⟨3, ![16, 2048, 1024]⟩
abbrev S16x1024 : Shape := ⟨2, ![16, 1024]⟩
abbrev S16x1x1024 : Shape := ⟨3, ![16, 1, 1024]⟩
abbrev S1x512x1024 : Shape := ⟨3, ![1, 512, 1024]⟩
abbrev S1x1x1024 : Shape := ⟨3, ![1, 1, 1024]⟩
abbrev S1x1024 : Shape := ⟨2, ![1, 1024]⟩
abbrev S16x2048x3072 : Shape := ⟨3, ![16, 2048, 3072]⟩
abbrev S1x512x3072 : Shape := ⟨3, ![1, 512, 3072]⟩

abbrev nBuf : Space → Nat
  | .hbm => 7
  | .vmem => 12
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x2048x1024, .f32⟩
  | .hbm, ⟨3, _⟩ => ⟨S16x1024, .f32⟩
  | .hbm, ⟨4, _⟩ => ⟨S16x1x1024, .f32⟩
  | .hbm, ⟨5, _⟩ => ⟨S16x1x1024, .f32⟩
  | .hbm, ⟨6, _⟩ => ⟨S16x2048x3072, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x512x3072, .f32⟩
  | .local _ .vmem, ⟨11, _⟩ => ⟨S1x512x3072, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x3072 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  concatenates_S16x512_S16x512_S16x1024_d1 : Shape.Concatenates [S16x512, S16x512] S16x1024 1
  bcast_S16x1024_S16x1x1024_0_2 : S16x1024.BroadcastsInDim S16x1x1024 (![0, 2] : Fin 2 → Fin S16x1x1024.rank)
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1x1024 : S1x1x1024.ShapeCasts S1x1x1024
  inb_S1x512x1024_S1x512x1024_0_0_0 : ∀ a, (![0, 0, 0] : Fin 3 → Nat) a + S1x512x1024.size a ≤ S1x512x1024.size a
  h_S1x512x1024 : 0 < S1x512x1024.numel
  reduces_S1x512x1024_S1x1024 : S1x512x1024.Reduces [1] S1x1024
  shapeCasts_S1x1024_S1x1x1024 : S1x1024.ShapeCasts S1x1x1024
  broadcasts_S1x1x1024_S1x512x1024 : S1x1x1024.Broadcasts S1x512x1024
  concatenates_S1x512x1024_S1x512x1024_S1x512x1024_S1x512x3072_d2 : Shape.Concatenates [S1x512x1024, S1x512x1024, S1x512x1024] S1x512x3072 2
  inb_S1x512x3072_S1x512x3072_0_0_0 : ∀ a, (![0, 0, 0] : Fin 3 → Nat) a + S1x512x3072.size a ≤ S1x512x3072.size a
  h_S1x512x3072 : 0 < S1x512x3072.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x2048x1024.size a
  hwx0_0 : ∀ i : grid0.Coords, EltTy.bits .f32 = 32 ∨ (Rect.block (s := S16x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S16x1x1024.size a
  hwx0_1 : ∀ i : grid0.Coords, EltTy.bits .f32 = 32 ∨ (Rect.block (s := S16x1x1024) S1x1x1024.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S16x2048x1024.size a
  hwx1_0 : ∀ i : grid1.Coords, EltTy.bits .f32 = 32 ∨ (Rect.block (s := S16x2048x1024) S1x512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024.size a ≤ S16x1x1024.size a
  hwx1_1 : ∀ i : grid1.Coords, EltTy.bits .f32 = 32 ∨ (Rect.block (s := S16x1x1024) S1x1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024.size a ≤ S16x1x1024.size a
  hwx1_2 : ∀ i : grid1.Coords, EltTy.bits .f32 = 32 ∨ (Rect.block (s := S16x1x1024) S1x1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x3072.size a ≤ S16x2048x3072.size a
  hwx1_3 : ∀ i : grid1.Coords, EltTy.bits .f32 = 32 ∨ (Rect.block (s := S16x2048x3072) S1x512x3072.size (cc1_transform_3 i) (hinb1_3 i)).WholeWords (EltTy.packing .f32)

variable [Facts₀]

abbrev win0_0 : Pipeline.Window sig grid0 :=
  Pipeline.Window.ofSpec (Memref.whole main_arg2) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg2) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x512x3072.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x512 : Shape := ⟨2, ![16, 512]⟩
abbrev S16x2048x1024 : Shape := ⟨3, ![16, 2048, 1024]⟩
abbrev S16x1024 : Shape := ⟨2, ![16, 1024]⟩
abbrev S_ : Shape := ⟨0, ![]⟩
abbrev S16x1x1024 : Shape := ⟨3, ![16, 1, 1024]⟩
abbrev S16x2048x3072 : Shape := ⟨3, ![16, 2048, 3072]⟩

abbrev nBuf : Space → Nat
  | .hbm => 14
  | .vmem => 0
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x2048x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1x1024, .f32⟩
  | .hbm, ⟨7, _⟩ => ⟨S_, .f32⟩
  | .hbm, ⟨8, _⟩ => ⟨S16x1x1024, .f32⟩
  | .hbm, ⟨9, _⟩ => ⟨S16x1x1024, .f32⟩
  | .hbm, ⟨10, _⟩ => ⟨S16x2048x1024, .f32⟩
  | .hbm, ⟨11, _⟩ => ⟨S16x1x1024, .f32⟩
  | .hbm, ⟨12, _⟩ => ⟨S16x2048x1024, .f32⟩
  | .hbm, ⟨13, _⟩ => ⟨S16x2048x3072, .f32⟩
  | _, _ => ⟨S16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  concatenates_S16x512_S16x512_S16x1024_d1 : Shape.Concatenates [S16x512, S16x512] S16x1024 1
  reducesTo_S16x2048x1024_S16x1024_d1 : S16x2048x1024.ReducesTo [1] S16x1024
  h_S_ : 0 < S_.numel
  bcast_S16x1024_S16x1x1024_0_2 : S16x1024.BroadcastsInDim S16x1x1024 (![0, 2] : Fin 2 → Fin S16x1x1024.rank)
  bcast_S_S16x1x1024 : S_.BroadcastsInDim S16x1x1024 (![] : Fin 0 → Fin S16x1x1024.rank)
  bcast_S16x1x1024_S16x2048x1024_0_1_2 : S16x1x1024.BroadcastsInDim S16x2048x1024 (![0, 1, 2] : Fin 3 → Fin S16x2048x1024.rank)
  concatenates_S16x2048x1024_S16x2048x1024_S16x2048x1024_S16x2048x3072_d2 : Shape.Concatenates [S16x2048x1024, S16x2048x1024, S16x2048x1024] S16x2048x3072 2

variable [Facts₀]

class Facts : Prop extends Facts₀ where

variable [Facts]
-- ==== Proof.MeanPieces.lean ====
/-
  Region 0 (the column-sum kernel), one grid point at a time: what the body leaves in the staged
  output block, as a pure term of what it loaded.

  The body has three control cases over the second grid coordinate `l`. At `l = 0` it zeroes the
  block and then adds the input block's column sums into it, so what it leaves is the update payload
  over the reset payload. At `l = 1, 2` it adds the column sums into what the point before left. At
  `l = 3` it adds and then scales, so what it leaves is the closing payload over the update payload
  over what the point before left. Each case's stores cover the whole block, the later store read
  back through the earlier one.
-/
import proofs.«100370_j42958262895310_1_alg».proof.Proof.Gen.KernelIdeal.Frame
import Idealize.ShloMosaic.Lib.Pipeline.Value

set_option maxRecDepth 16384

noncomputable section

namespace Cert.KernelIdeal.MeanPieces

open Cert.KernelIdeal Cert.KernelIdeal.Gen
open Idealize.ShloMosaic Idealize.ShloMosaic.TcCoe Idealize.ShloMosaic.Tactic
open Idealize.SL Idealize.SL.Sem

variable {F : FTy → Type} [FloatOps F]

/-- Every access of both kernels starts at the block's origin. -/
theorem origin3 : (![0, 0, 0] : Fin 3 → Nat) = fun _ => 0 := funext fun a => by fin_cases a <;> rfl

/-- First point of a row of the grid: reset, then add. -/
theorem left_first (c : Dev nD) (i : grid0.Coords) (arg2 : Memref sig .tc .vmem S1x512x1024 .f32) (harg2 : arg2.IsWhole) (arg3 : Memref sig .tc .vmem S1x1x1024 .f32) (harg3 : arg3.IsWhole) (hc0 : cond0_0 i) (hc1 : ¬cond0_1 i)
    (x0 : Vec F S1x512x1024 .f32) :
    out0_A_1 c i arg2 harg2 arg3 harg3 hc0 hc1 x0 = k0_pay2 (k0_pay1 (F := F)) x0 := by
  unfold out0_A_1
  rw [View.read_writes_eq_canon _ _ _ (cover0_A_1 c i arg2 harg2 arg3 harg3 hc0 hc1 x0)]
  unfold kernelRun0_A
  dsimp only
  sl_unfold_words
  rw [View.canon_cons_unit_zero (S := S1x1x1024) origin3]
  simp only [View.readCov_unit_zero (S := S1x1x1024) _ origin3, View.readAt_eq_ld, harg2.read_unread, View.ld_unit_zero (S := S1x512x1024) origin3]

/-- A middle point: add into what the point before left. -/
theorem left_middle (c : Dev nD) (i : grid0.Coords) (arg2 : Memref sig .tc .vmem S1x512x1024 .f32) (harg2 : arg2.IsWhole) (arg3 : Memref sig .tc .vmem S1x1x1024 .f32) (harg3 : arg3.IsWhole) (hc0 : ¬cond0_0 i) (hc1 : ¬cond0_1 i)
    (x0 : Vec F S1x512x1024 .f32) (xo1 : Vec F S1x1x1024 .f32) :
    out0_B_1 c i arg2 harg2 arg3 harg3 hc0 hc1 x0 xo1 = k0_pay2 xo1 x0 := by
  unfold out0_B_1
  rw [View.read_writes_eq_canon _ _ _ (cover0_B_1 c i arg2 harg2 arg3 harg3 hc0 hc1 x0 xo1)]
  unfold kernelRun0_B
  dsimp only
  sl_unfold_words
  rw [View.canon_unit_zero (S := S1x1x1024) origin3]
  simp only [View.readAt_eq_ld, harg2.read_unread, harg3.read_unread, View.ld_unit_zero (S := S1x512x1024) origin3, View.ld_unit_zero (S := S1x1x1024) origin3]

/-- Last point of a row of the grid: add, then scale. -/
theorem left_last (c : Dev nD) (i : grid0.Coords) (arg2 : Memref sig .tc .vmem S1x512x1024 .f32) (harg2 : arg2.IsWhole) (arg3 : Memref sig .tc .vmem S1x1x1024 .f32) (harg3 : arg3.IsWhole) (hc0 : ¬cond0_0 i) (hc1 : cond0_1 i)
    (x0 : Vec F S1x512x1024 .f32) (xo1 : Vec F S1x1x1024 .f32) :
    out0_C_1 c i arg2 harg2 arg3 harg3 hc0 hc1 x0 xo1 = k0_pay3 (k0_pay2 xo1 x0) := by
  unfold out0_C_1
  rw [View.read_writes_eq_canon _ _ _ (cover0_C_1 c i arg2 harg2 arg3 harg3 hc0 hc1 x0 xo1)]
  unfold kernelRun0_C
  dsimp only
  sl_unfold_words
  rw [View.canon_cons_unit_zero (S := S1x1x1024) origin3]
  simp only [View.readCov_unit_zero (S := S1x1x1024) _ origin3, View.readAt_eq_ld, harg2.read_unread, harg3.read_unread, View.ld_unit_zero (S := S1x512x1024) origin3, View.ld_unit_zero (S := S1x1x1024) origin3]
end Cert.KernelIdeal.MeanPieces

end
-- ==== Proof.MeanPay.lean ====
/-
  Region 0's three payloads read in one lane, at the exact instance: the reset is zero, the update is
  the running total plus the sum of the loaded block's column over its 512 rows, the closing payload
  is the running total times the float 2⁻¹¹.
-/
import proofs.«100370_j42958262895310_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.MeanPay

open Cert.KernelIdeal Cert.KernelIdeal.Gen Cert.KernelIdeal.Facts₀
open Idealize.ShloMosaic

/-- The entry of a 512-row block that a lane of the running total adds at row `k`: row `k`, the lane's column. -/
def rowIdx (y : S1x1x1024.Idx) (k : Fin 512) : S1x512x1024.Idx := fun a => match a with
  | ⟨0, _⟩ => ⟨0, Nat.one_pos⟩
  | ⟨1, _⟩ => ⟨k.val, k.isLt⟩
  | ⟨2, _⟩ => ⟨(y 2).val, (y 2).isLt⟩

/-- The reset payload is zero in every lane. -/
theorem pay1_apply (y : S1x1x1024.Idx) : k0_pay1 (F := Ideal) y = Ideal.ofBits .f32 0x00000000#32 := rfl

/-- The update payload in a lane: the running total there plus the block's column sum over its 512 rows. -/
theorem pay2_apply (acc : FVec Ideal S1x1x1024 .f32) (x : FVec Ideal S1x512x1024 .f32) (y : S1x1x1024.Idx) :
    k0_pay2 acc x y = acc y + ∑ k : Fin 512, x (rowIdx y k) := by
  unfold k0_pay2
  refine (ValueIdx.addf_apply _ _ y).trans ?_
  rw [shapeCast_self]
  refine congrArg (acc y + ·) ?_
  refine (shapeCast_addUnit_apply ![1, 1024] _ _ y).trans ?_
  refine (Ideal.multiReduction_add_single x 0x00000000#32 _ (.inl rfl) rfl _).trans ?_
  refine Finset.sum_congr rfl fun k _ => congrArg x (funext fun a => Fin.ext ?_)
  match a with
  | ⟨0, _⟩ =>
    show (y 1).val = 0
    have h1 : (y 1).val < 1 := (y 1).isLt
    omega
  | ⟨1, _⟩ => rfl
  | ⟨2, _⟩ => rfl

/-- The closing payload in a lane: the running total there times the float 2⁻¹¹. -/
theorem pay3_apply (acc : FVec Ideal S1x1x1024 .f32) (y : S1x1x1024.Idx) :
    k0_pay3 acc y = acc y * Ideal.ofBits .f32 0x3A000000#32 := by
  unfold k0_pay3
  refine (ValueIdx.mulf_apply _ _ y).trans ?_
  rw [shapeCast_self]
  rfl

end Cert.KernelIdeal.MeanPay

end
-- ==== Proof.MeanLaw.lean ====
/-
  The arithmetic that joins the two means, on the extended reals.

  The kernel adds a row of 2048 entries as four runs of 512, each run summed on its own and added
  to a running total that starts at zero, and multiplies the total by the float 2⁻¹¹; the reference
  adds the whole row to zero and divides by the float 2048. Addition of extended reals is
  commutative and associative, so the four partial sums regroup into the one sum with no finiteness
  asked; 2⁻¹¹ and 2048 are exact binary values, reciprocal to one another, and dividing an extended
  real by a nonzero real is multiplying by its reciprocal.
-/
import Idealize.ShloMosaic.PureOps.Ideal
import Idealize.ShloMosaic.PureOps.Ideal.Laws
import Mathlib.Algebra.BigOperators.Fin
import Mathlib.Data.EReal.Basic

noncomputable section

namespace Cert.MeanLaw

open Idealize.ShloMosaic

/-- The float word of `2048.0` denotes the real 2048. -/
theorem ofBits_2048 : Ideal.ofBits .f32 0x45000000#32 = ((2048 : ℝ) : EReal) := by
  simp [Ideal.ofBits, Ideal.ieee, -EReal.coe_mul]; norm_num

/-- The float word of `4.8828125e-4` denotes the real 1/2048 exactly: it is 2⁻¹¹. -/
theorem ofBits_inv2048 : Ideal.ofBits .f32 0x3A000000#32 = ((1 / 2048 : ℝ) : EReal) := by
  simp [Ideal.ofBits, Ideal.ieee, -EReal.coe_mul]; norm_num

/-- Entry `k` of run `s` of a row of 2048: position `512 s + k`. -/
def run (s : Fin 4) (k : Fin 512) : Fin 2048 := ⟨512 * s.val + k.val, by omega⟩

@[simp] theorem run_val (s : Fin 4) (k : Fin 512) : (run s k).val = 512 * s.val + k.val := rfl

/-- A sum over a row of 2048 is the sum of its four runs of 512. -/
theorem sum_runs (f : Fin 2048 → EReal) : ∑ j : Fin 2048, f j = ∑ s : Fin 4, ∑ k : Fin 512, f (run s k) := by
  have h1 : ∑ j : Fin 2048, f j = ∑ p : Fin 4 × Fin 512, f (finProdFinEquiv p) :=
    (Equiv.sum_comp (finProdFinEquiv (m := 4) (n := 512)) f).symm
  rw [h1, Fintype.sum_prod_type]
  refine Finset.sum_congr rfl fun s _ => Finset.sum_congr rfl fun k _ => congrArg f (Fin.ext ?_)
  simp [finProdFinEquiv, run]
  omega

/-- The kernel's mean of a row is the reference's: the running total of the four runs' sums from zero,
    times 2⁻¹¹, is zero plus the row's sum, divided by 2048. -/
theorem mean_eq (f : Fin 2048 → EReal) :
    ((((Ideal.ofBits .f32 0x00000000#32 + ∑ k : Fin 512, f (run 0 k)) + ∑ k : Fin 512, f (run 1 k))
        + ∑ k : Fin 512, f (run 2 k)) + ∑ k : Fin 512, f (run 3 k)) * Ideal.ofBits .f32 0x3A000000#32
      = Ideal.div (Ideal.ofBits .f32 0x00000000#32 + ∑ j : Fin 2048, f j) (Ideal.ofBits .f32 0x45000000#32) := by
  rw [ofBits_2048, ofBits_inv2048, Ideal.div_coe (by norm_num : (2048 : ℝ) ≠ 0), sum_runs f, Fin.sum_univ_four]
  simp only [add_assoc]

end Cert.MeanLaw

end
-- ==== Proof.MeanValue.lean ====
/-
  Region 0's result array: per batch row `b` and column `d`, the mean of `inp[b, :, d]` over its
  2048 entries, which is the reference's `sum / 2048` stage read at `(b, 0, d)`.

  The grid is 16 × 4: point `4 q + s` stages rows `512 s … 512 s + 511` of batch row `q`, and the
  output block `(q, 0, 0)` stays in its staging buffer across the four points of a row of the grid and
  is written back at the last. What that buffer holds after a point resets at the first point of each
  row and steps from the point before at the others, so at the last point it is the fold over the
  row's four points: the four runs' column sums added one after another to zero, then scaled by 2⁻¹¹.
  In one lane that is the running total of four sums of 512 entries, and the four runs are the whole
  column, so the arithmetic law of the two means closes it.
-/
import proofs.«100370_j42958262895310_1_alg».proof.Proof.MeanPieces
import proofs.«100370_j42958262895310_1_alg».proof.Proof.MeanPay
import proofs.«100370_j42958262895310_1_alg».proof.Proof.MeanLaw
import proofs.«100370_j42958262895310_1_alg».proof.Proof.Gen.ReferenceIdeal.Read

set_option maxRecDepth 16384

noncomputable section

namespace Cert.KernelIdeal.MeanValue

open Cert.KernelIdeal Cert.KernelIdeal.Gen
open Idealize.ShloMosaic Idealize.ShloMosaic.TcCoe
open Idealize.SL Idealize.SL.Sem
open Idealize.ShloMosaic.Pipeline (Dat Cfg Window)
open Cert.KernelIdeal.MeanPieces Cert.KernelIdeal.MeanPay
open Cert.ReferenceIdeal (Read.val_main_v4 Read.idx_main_v1 Read.idx_main_v2)

variable (V : (c : Dev nD) → (b : Ref sig .tc) → Buf (Elt Ideal) ((c : Thread nD τ).loc b))

/-! ## Where the blocks sit -/

/-- The input block at point `t` is block `(t / 4, t % 4, 0)` of the input array. -/
theorem idx_in : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, _)

/-- The output block at point `t` is block `(t / 4, 0, 0)` of the result array. -/
theorem idx_out : ∀ t : Fin cfg0.N, win0_1.index t (0 : Fin 3) = t.val / 4 ∧ win0_1.index t (1 : Fin 3) = 0
    ∧ win0_1.index t (2 : Fin 3) = 0 :=
  (by decide +kernel : ∀ t : Fin grid0.N, _)

/-! ## The staged output block after each point, as a fold over a row of the grid -/

/-- The input block the pipeline stages at point `n`. -/
abbrev xblk (c : Dev nD) (n : ℕ) (hn : n < cfg0.N) : FVec Ideal S1x512x1024 .f32 := iblk0 V c 0 ⟨n, hn⟩

/-- What the first point of a row leaves: the block's column sums added to zero. -/
def resetAt (c : Dev nD) (n : ℕ) (hn : n < cfg0.N) : FVec Ideal S1x1x1024 .f32 :=
  k0_pay2 (F := Ideal) (k0_pay1 (F := Ideal)) (xblk V c n hn)

/-- What a later point leaves over what the point before left: the block's column sums added in, and at the
    row's last point the total scaled. -/
def stepAt (c : Dev nD) (n : ℕ) (hn : n < cfg0.N) (acc : FVec Ideal S1x1x1024 .f32) : FVec Ideal S1x1x1024 .f32 :=
  if n % 4 = 3 then k0_pay3 (F := Ideal) (k0_pay2 (F := Ideal) acc (xblk V c n hn)) else k0_pay2 (F := Ideal) acc (xblk V c n hn)

theorem outs_reset (c : Dev nD) (n : ℕ) (hn : n < cfg0.N) (h : n % 4 = 0) :
    outsAt0 V c n hn = resetAt V c n hn :=
  (outsAt0_A V c ⟨n, hn⟩ h (by show ¬n % 4 = 3; omega)).trans
    (left_first (F := Ideal) c (grid0.coords ⟨n, hn⟩) (ms0_0 ⟨n, hn⟩) (hs0_0 ⟨n, hn⟩) (ms0_1 ⟨n, hn⟩) (hs0_1 ⟨n, hn⟩) _ _
      (iblk0 V c 0 ⟨n, hn⟩))

theorem outs_step (c : Dev nD) (n : ℕ) (hn : n + 1 < cfg0.N) (h : ¬(n + 1) % 4 = 0) :
    outsAt0 V c (n + 1) hn = stepAt V c (n + 1) hn (outsAt0 V c n (Nat.lt_of_succ_lt hn)) := by
  unfold stepAt
  by_cases h3 : (n + 1) % 4 = 3
  · rw [if_pos h3]
    exact (outsAt0_C V c ⟨n + 1, hn⟩ h h3).trans
      (left_last (F := Ideal) c (grid0.coords ⟨n + 1, hn⟩) (ms0_0 ⟨n + 1, hn⟩) (hs0_0 ⟨n + 1, hn⟩) (ms0_1 ⟨n + 1, hn⟩)
        (hs0_1 ⟨n + 1, hn⟩) _ _ (iblk0 V c 0 ⟨n + 1, hn⟩) (outsAt0 V c n (Nat.lt_of_succ_lt hn)))
  · rw [if_neg h3]
    exact (outsAt0_B V c ⟨n + 1, hn⟩ h h3).trans
      (left_middle (F := Ideal) c (grid0.coords ⟨n + 1, hn⟩) (ms0_0 ⟨n + 1, hn⟩) (hs0_0 ⟨n + 1, hn⟩) (ms0_1 ⟨n + 1, hn⟩)
        (hs0_1 ⟨n + 1, hn⟩) _ _ (iblk0 V c 0 ⟨n + 1, hn⟩) (outsAt0 V c n (Nat.lt_of_succ_lt hn)))

/-- At the last point of row `q` of the grid the staged block holds the four runs' column sums added to zero
    in order, scaled. -/
theorem outs_last (c : Dev nD) (q : ℕ) (h0 : 4 * q < cfg0.N) (h1 : 4 * q + 1 < cfg0.N) (h2 : 4 * q + 2 < cfg0.N)
    (h3 : 4 * q + 3 < cfg0.N) :
    outsAt0 V c (4 * q + 3) h3
      = k0_pay3 (F := Ideal) (k0_pay2 (F := Ideal) (k0_pay2 (F := Ideal) (k0_pay2 (F := Ideal)
          (k0_pay2 (F := Ideal) (k0_pay1 (F := Ideal)) (xblk V c (4 * q) h0)) (xblk V c (4 * q + 1) h1))
          (xblk V c (4 * q + 2) h2)) (xblk V c (4 * q + 3) h3)) := by
  refine (Pipeline.eq_accAt (fun n hn => outsAt0 V c n hn) 4 (resetAt V c) (stepAt V c) (outs_reset V c) (outs_step V c)
    q 3 (by norm_num) h3).trans ?_
  show stepAt V c (4 * q + 3) h3 (stepAt V c (4 * q + 2) h2 (stepAt V c (4 * q + 1) h1 (resetAt V c (4 * q) h0))) = _
  have c3 : (4 * q + 3) % 4 = 3 := by omega
  have c2 : ¬(4 * q + 2) % 4 = 3 := by omega
  have c1 : ¬(4 * q + 1) % 4 = 3 := by omega
  unfold stepAt resetAt
  rw [if_pos c3, if_neg c2, if_neg c1]

/-! ## One lane of the total against one entry of the reference's mean -/

/-- Row `k` of the block staged at point `4 q + s`, in the lane of `y`, is entry `512 s + k` of the column the
    reference's sum runs over for the output block's element `y`. -/
theorem xblk_row (c : Dev nD) (q : ℕ) (s : Fin 4) (n : ℕ) (e : n = 4 * q + s.val) (hn : n < cfg0.N) (h3 : 4 * q + 3 < cfg0.N)
    (y : S1x1x1024.Idx) (k : Fin 512) :
    xblk V c n hn (rowIdx y k)
      = V c main_arg2 (Read.idx_main_v1 (Read.idx_main_v2 (((cfg0.win 1).blk ⟨4 * q + 3, h3⟩).view.emb y)) (MeanLaw.run s k)) := by
  subst e
  show V c main_arg2 (((cfg0.win 0).blk ⟨4 * q + s.val, hn⟩).view.emb (rowIdx y k)) = _
  refine congrArg (V c main_arg2) (funext fun a => Fin.ext ?_)
  obtain ⟨i0, i1, i2⟩ := idx_in ⟨4 * q + s.val, hn⟩
  obtain ⟨o0, o1, o2⟩ := idx_out ⟨4 * q + 3, h3⟩
  dsimp only at i0 i1 i2 o0 o1 o2
  have hs : s.val < 4 := s.isLt
  have hy0 : (y 0).val < 1 := (y 0).isLt
  match a with
  | ⟨0, _⟩ =>
    show win0_0.index ⟨4 * q + s.val, hn⟩ (0 : Fin 3) * 1 + 1 * 0 = win0_1.index ⟨4 * q + 3, h3⟩ (0 : Fin 3) * 1 + 1 * (y 0).val
    omega
  | ⟨1, _⟩ =>
    show win0_0.index ⟨4 * q + s.val, hn⟩ (1 : Fin 3) * 512 + 1 * k.val = 512 * s.val + k.val
    omega
  | ⟨2, _⟩ =>
    show win0_0.index ⟨4 * q + s.val, hn⟩ (2 : Fin 3) * 1024 + 1 * (y 2).val = win0_1.index ⟨4 * q + 3, h3⟩ (2 : Fin 3) * 1024 + 1 * (y 2).val
    omega

/-- WHAT A WRITING POINT WRITES BACK is its block of the reference's mean stage of the input array. -/
theorem flushed_mean (c : Dev nD) (t : Fin cfg0.N) (hf : (cfg0.win 1).flush t = true) :
    (dat0 V c).flushed 1 t = ((cfg0.win 1).blk t).view.read (Elt Ideal) (Read.val_main_v4 (F := Ideal) (V c main_arg2)) := by
  have hm : t.val % 4 = 3 := (flush0_1 t).mp hf
  obtain ⟨n, hn⟩ := t
  obtain ⟨q, rfl⟩ : ∃ q, n = 4 * q + 3 := ⟨n / 4, by dsimp only at hm; omega⟩
  have hN : 4 * q + 3 < 64 := lt_of_lt_of_eq hn (show cfg0.N = 64 from N_0)
  have h0 : 4 * q < cfg0.N := lt_of_lt_of_eq (by omega) (show cfg0.N = 64 from N_0).symm
  have h1 : 4 * q + 1 < cfg0.N := lt_of_lt_of_eq (by omega) (show cfg0.N = 64 from N_0).symm
  have h2 : 4 * q + 2 < cfg0.N := lt_of_lt_of_eq (by omega) (show cfg0.N = 64 from N_0).symm
  show (cfg0.win 1).cut (grid0.coords ⟨4 * q + 3, hn⟩) ((dat0 V c).after 1 ⟨4 * q + 3, hn⟩) = _
  rw [after0_1]
  funext y
  show outsAt0 V c (4 * q + 3) hn y
    = Read.val_main_v4 (F := Ideal) (V c main_arg2) (((cfg0.win 1).blk ⟨4 * q + 3, hn⟩).view.emb y)
  rw [outs_last V c q h0 h1 h2 hn, pay3_apply, pay2_apply, pay2_apply, pay2_apply, pay2_apply, pay1_apply]
  rw [Cert.ReferenceIdeal.Read.val_main_v4_apply, Cert.ReferenceIdeal.Read.val_main_v2_apply, Cert.ReferenceIdeal.Read.val_main_v3_apply,
    Cert.ReferenceIdeal.Read.val_main_cst_0_apply, Cert.ReferenceIdeal.Read.val_main_v1_apply, Cert.ReferenceIdeal.Read.val_main_cst_apply]
  refine Eq.trans ?_ (MeanLaw.mean_eq fun j =>
    V c main_arg2 (Read.idx_main_v1 (Read.idx_main_v2 (((cfg0.win 1).blk ⟨4 * q + 3, hn⟩).view.emb y)) j))
  rw [Finset.sum_congr rfl fun k _ => xblk_row V c q 0 (4 * q) rfl h0 hn y k,
    Finset.sum_congr rfl fun k _ => xblk_row V c q 1 (4 * q + 1) rfl h1 hn y k,
    Finset.sum_congr rfl fun k _ => xblk_row V c q 2 (4 * q + 2) rfl h2 hn y k,
    Finset.sum_congr rfl fun k _ => xblk_row V c q 3 (4 * q + 3) rfl hn hn y k]

/-! ## The whole result array -/

/-- An index of the result array is in point `t`'s block iff each coordinate is in the block's range on its axis. -/
theorem mem_blk_out (t : Fin cfg0.N) (i : S16x1x1024.Idx) :
    i ∈ ((cfg0.win 1).blk t).view.set ↔ ∀ a : Fin 3, win0_1.index t a * S1x1x1024.size a ≤ (i a).val
      ∧ (i a).val < win0_1.index t a * S1x1x1024.size a + S1x1x1024.size a := by
  show i ∈ ((View.whole main_v2).slice (win0_1.rect t)).set ↔ _
  rw [View.set_slice_whole, Rect.mem_set_unit]
  exact Iff.rfl

/-- Every entry `(b, 0, d)` of the result array is in the block written back at the last point of row `b` of the grid. -/
theorem cover_mean (i : S16x1x1024.Idx) :
    ∃ t : Fin cfg0.N, (cfg0.win 1).flush t = true ∧ i ∈ ((cfg0.win 1).blk t).view.set := by
  have hi0 : (i 0).val < 16 := (i 0).isLt
  have hi1 : (i 1).val < 1 := (i 1).isLt
  have hi2 : (i 2).val < 1024 := (i 2).isLt
  have hN : 4 * (i 0).val + 3 < cfg0.N := lt_of_lt_of_eq (by omega) (show cfg0.N = 64 from N_0).symm
  refine ⟨⟨4 * (i 0).val + 3, hN⟩, (flush0_1 _).mpr (by show (4 * (i 0).val + 3) % 4 = 3; omega), ?_⟩
  rw [mem_blk_out]
  obtain ⟨o0, o1, o2⟩ := idx_out ⟨4 * (i 0).val + 3, hN⟩
  dsimp only at o0 o1 o2
  intro a
  match a with
  | ⟨0, _⟩ =>
    show win0_1.index ⟨4 * (i 0).val + 3, hN⟩ (0 : Fin 3) * 1 ≤ (i 0).val
      ∧ (i 0).val < win0_1.index ⟨4 * (i 0).val + 3, hN⟩ (0 : Fin 3) * 1 + 1
    omega
  | ⟨1, _⟩ =>
    show win0_1.index ⟨4 * (i 0).val + 3, hN⟩ (1 : Fin 3) * 1 ≤ (i 1).val
      ∧ (i 1).val < win0_1.index ⟨4 * (i 0).val + 3, hN⟩ (1 : Fin 3) * 1 + 1
    omega
  | ⟨2, _⟩ =>
    show win0_1.index ⟨4 * (i 0).val + 3, hN⟩ (2 : Fin 3) * 1024 ≤ (i 2).val
      ∧ (i 2).val < win0_1.index ⟨4 * (i 0).val + 3, hN⟩ (2 : Fin 3) * 1024 + 1024
    omega

/-- THE RESULT ARRAY OF REGION 0 after its run is the reference's mean stage of the input array as the region found it. -/
theorem mean_final (c : Dev nD) : (dat0 V c).arrAt 1 cfg0.N = Read.val_main_v4 (F := Ideal) (V c main_arg2) :=
  (dat0 V c).arrAt_eq_of_cover 1 _ (fun t hf => flushed_mean V c t hf) cover_mean

end Cert.KernelIdeal.MeanValue

end
-- ==== Proof.Concat3.lean ====
/-
  Three arrays of one shape [A, B, 1024] joined along the last axis into [A, B, 3072], read at an index:
  the last coordinate `v` picks the piece (`v / 1024`) and the position in it (`v % 1024`), the other
  two coordinates pass through. Stated once for any leading extents, so that it reads both a kernel's
  [1, 512, 3072] block and the whole [16, 2048, 3072] array.
-/
import Idealize.ShloMosaic.Lib.Pipeline.Value

noncomputable section

namespace Cert.Concat3

open Idealize.ShloMosaic

variable {α : Type} {A B : ℕ}

/-- The index of a piece with leading coordinates `p`, `r` and last coordinate `v`. -/
def at3 (p : Fin A) (r : Fin B) (v : ℕ) (hv : v < 1024) : (⟨3, ![A, B, 1024]⟩ : Shape).Idx := fun a => match a with
  | ⟨0, _⟩ => ⟨p.val, p.isLt⟩
  | ⟨1, _⟩ => ⟨r.val, r.isLt⟩
  | ⟨2, _⟩ => ⟨v, hv⟩

/-- Equal last coordinates give the same index, whatever the bound proofs. -/
theorem at3_congr (p : Fin A) (r : Fin B) {v w : ℕ} (hv : v < 1024) (hw : w < 1024) (e : v = w) :
    at3 p r v hv = at3 p r w hw := by
  subst e; rfl

/-- The joined array at `j`: the first piece while the last coordinate is below 1024, the second below 2048,
    else the third, each at the last coordinate less the pieces before it. -/
theorem concat3_apply (x0 x1 x2 : (⟨3, ![A, B, 1024]⟩ : Shape).Idx → α)
    (h : Shape.Concatenates [(⟨3, ![A, B, 1024]⟩ : Shape), ⟨3, ![A, B, 1024]⟩, ⟨3, ![A, B, 1024]⟩] ⟨3, ![A, B, 3072]⟩ 2)
    (j : (⟨3, ![A, B, 3072]⟩ : Shape).Idx) :
    concatenate ⟨3, ![A, B, 3072]⟩ 2 [⟨_, x0⟩, ⟨_, x1⟩, ⟨_, x2⟩] h j
      = if h0 : (j 2).val < 1024 then x0 (at3 (j 0) (j 1) (j 2).val h0)
        else if h1 : (j 2).val < 2048 then x1 (at3 (j 0) (j 1) ((j 2).val - 1024) (by omega))
        else x2 (at3 (j 0) (j 1) ((j 2).val - 2048) (by have h3 : (j 2).val < 3072 := (j 2).isLt; omega)) := by
  have h3 : (j 2).val < 3072 := (j 2).isLt
  have keep : ∀ (v : ℕ) (hv : v < 1024) (b : Fin 3), b.cast rfl ≠ (2 : Fin 3) →
      (at3 (j 0) (j 1) v hv b).val = (j (b.cast rfl)).val := fun v hv b hb =>
    match b with
    | ⟨0, _⟩ => rfl
    | ⟨1, _⟩ => rfl
    | ⟨2, _⟩ => (hb (Fin.ext rfl)).elim
  let xs : List ((s : Shape) × (s.Idx → α)) := [⟨_, x0⟩, ⟨_, x1⟩, ⟨_, x2⟩]
  by_cases h0 : (j 2).val < 1024
  · rw [dif_pos h0]
    exact concatenate_apply_piece 2 xs h j 0 (by show 0 < 3; omega) _ x0 rfl rfl 0 rfl _ (keep _ h0)
      (by show 0 + (j 2).val = (j 2).val; omega)
  · rw [dif_neg h0]
    by_cases h1 : (j 2).val < 2048
    · rw [dif_pos h1]
      exact concatenate_apply_piece 2 xs h j 1 (by show 1 < 3; omega) _ x1 rfl rfl 1024 rfl _ (keep _ (by omega))
        (by show 1024 + ((j 2).val - 1024) = (j 2).val; omega)
    · rw [dif_neg h1]
      exact concatenate_apply_piece 2 xs h j 2 (by show 2 < 3; omega) _ x2 rfl rfl 2048 rfl _ (keep _ (by omega))
        (by show 2048 + ((j 2).val - 2048) = (j 2).val; omega)

end Cert.Concat3

end
-- ==== Proof.ExpandPay.lean ====
/-
  Region 1 (the expanding kernel) in one element, and the array it is a block of.

  The body joins three [1, 512, 1024] pieces along the last axis: the staged input block itself, the staged
  mean row repeated down the block's 512 rows, the staged hidden row repeated likewise. So the element
  `(0, r, v)` of what it stores is the input block at `(0, r, v)` for `v < 1024`, the mean row at lane
  `v - 1024` for `v < 2048`, the hidden row at lane `v - 2048` otherwise. The whole result is the same
  join of whole arrays — the input, the mean array and the hidden array repeated down 2048 rows — and has
  the same three-way reading.
-/
import proofs.«100370_j42958262895310_1_alg».proof.Proof.Gen.KernelIdeal.Skeleton
import proofs.«100370_j42958262895310_1_alg».proof.Proof.Gen.ReferenceIdeal
import proofs.«100370_j42958262895310_1_alg».proof.Proof.Concat3
import Idealize.ShloMosaic.Lib.Pipeline.Value
import Idealize.ShloMosaic.PureOps.Ideal

noncomputable section

namespace Cert.KernelIdeal.ExpandPay

open Cert.KernelIdeal Cert.KernelIdeal.Gen Cert.KernelIdeal.Facts₀
open Idealize.ShloMosaic
open Cert.Concat3

/-- Lane `v` of a [1, 1, 1024] row. -/
def lane (v : ℕ) (hv : v < 1024) : S1x1x1024.Idx := fun a => match a with
  | ⟨0, _⟩ => ⟨0, Nat.one_pos⟩
  | ⟨1, _⟩ => ⟨0, Nat.one_pos⟩
  | ⟨2, _⟩ => ⟨v, hv⟩

/-- A [1, 1, 1024] row repeated down a [1, 512, 1024] block reads, anywhere in column `v`, the row's lane `v`. -/
theorem rows_apply (x : FVec Ideal S1x1x1024 .f32) (p : Fin 1) (r : Fin 512) (v : ℕ) (hv : v < 1024) :
    broadcastTo S1x512x1024 x Facts₀.broadcasts_S1x1x1024_S1x512x1024 (at3 p r v hv) = x (lane v hv) :=
  broadcastTo_apply x _ (at3 p r v hv) (lane v hv) fun a => match a with
    | ⟨0, _⟩ => by show 0 = if (1 : Nat) = 1 then 0 else _; rw [if_pos rfl]
    | ⟨1, _⟩ => by show 0 = if (1 : Nat) = 1 then 0 else _; rw [if_pos rfl]
    | ⟨2, _⟩ => by show v = if (1024 : Nat) = 1 then 0 else v; rw [if_neg (by decide)]

/-- The stored block in one element: the input block, the mean row or the hidden row, by the last coordinate. -/
theorem pay_apply (x0 : FVec Ideal S1x512x1024 .f32) (x1 x2 : FVec Ideal S1x1x1024 .f32) (y : S1x512x3072.Idx) :
    k1_pay1 (F := Ideal) x0 x1 x2 y
      = if h0 : (y 2).val < 1024 then x0 (at3 (y 0) (y 1) (y 2).val h0)
        else if h1 : (y 2).val < 2048 then x1 (lane ((y 2).val - 1024) (by omega))
        else x2 (lane ((y 2).val - 2048) (by have h3 : (y 2).val < 3072 := (y 2).isLt; omega)) := by
  unfold k1_pay1
  simp only [shapeCast_self]
  refine (concat3_apply _ _ _ _ y).trans ?_
  by_cases h0 : (y 2).val < 1024
  · rw [dif_pos h0, dif_pos h0]
  · rw [dif_neg h0, dif_neg h0]
    by_cases h1 : (y 2).val < 2048
    · rw [dif_pos h1, dif_pos h1]; exact rows_apply x1 _ _ _ _
    · rw [dif_neg h1, dif_neg h1]; exact rows_apply x2 _ _ _ _

/-! ## The whole result -/

/-- Entry `(b, 0, v)` of a [16, 1, 1024] array. -/
def rowLane (b : Fin 16) (v : ℕ) (hv : v < 1024) : S16x1x1024.Idx := fun a => match a with
  | ⟨0, _⟩ => ⟨b.val, b.isLt⟩
  | ⟨1, _⟩ => ⟨0, Nat.one_pos⟩
  | ⟨2, _⟩ => ⟨v, hv⟩

/-- Equal lanes give the same entry, whatever the bound proofs. -/
theorem rowLane_congr (b : Fin 16) {v w : ℕ} (hv : v < 1024) (hw : w < 1024) (e : v = w) :
    rowLane b v hv = rowLane b w hw := by
  subst e; rfl

/-- The result as one function of the three arrays region 1 reads: the input array, then the mean array and the
    hidden array each repeated down the 2048 rows, joined along the last axis (the reference's own last three operations). -/
def joined (x : FVec Ideal S16x2048x1024 .f32) (mn hd : FVec Ideal S16x1x1024 .f32) : FVec Ideal S16x2048x3072 .f32 :=
  concatenate S16x2048x3072 2
    [⟨S16x2048x1024, x⟩,
     ⟨S16x2048x1024, broadcastInDim S16x2048x1024 ![0, 1, 2] Cert.ReferenceIdeal.Gen.bcast_S16x1x1024_S16x2048x1024_0_1_2 mn⟩,
     ⟨S16x2048x1024, broadcastInDim S16x2048x1024 ![0, 1, 2] Cert.ReferenceIdeal.Gen.bcast_S16x1x1024_S16x2048x1024_0_1_2 hd⟩]
    Cert.ReferenceIdeal.Gen.concatenates_S16x2048x1024_S16x2048x1024_S16x2048x1024_S16x2048x3072_d2

/-- A [16, 1, 1024] array repeated down 2048 rows reads, at `(b, r, v)`, its entry `(b, 0, v)`. -/
theorem rows16_apply (x : FVec Ideal S16x1x1024 .f32) (b : Fin 16) (r : Fin 2048) (v : ℕ) (hv : v < 1024) :
    broadcastInDim S16x2048x1024 ![0, 1, 2] Cert.ReferenceIdeal.Gen.bcast_S16x1x1024_S16x2048x1024_0_1_2 x (at3 b r v hv)
      = x (rowLane b v hv) :=
  broadcastInDim_apply _ _ x (at3 b r v hv) (rowLane b v hv) fun a => match a with
    | ⟨0, _⟩ => by show b.val = if (16 : Nat) = 1 then 0 else b.val; rw [if_neg (by decide)]
    | ⟨1, _⟩ => by show 0 = if (1 : Nat) = 1 then 0 else _; rw [if_pos rfl]
    | ⟨2, _⟩ => by show v = if (1024 : Nat) = 1 then 0 else v; rw [if_neg (by decide)]

/-- The whole result in one element: the input array, the mean array or the hidden array, by the last coordinate. -/
theorem joined_apply (x : FVec Ideal S16x2048x1024 .f32) (mn hd : FVec Ideal S16x1x1024 .f32) (i : S16x2048x3072.Idx) :
    joined x mn hd i
      = if h0 : (i 2).val < 1024 then x (at3 (i 0) (i 1) (i 2).val h0)
        else if h1 : (i 2).val < 2048 then mn (rowLane (i 0) ((i 2).val - 1024) (by omega))
        else hd (rowLane (i 0) ((i 2).val - 2048) (by have h3 : (i 2).val < 3072 := (i 2).isLt; omega)) := by
  unfold joined
  refine (concat3_apply _ _ _ _ i).trans ?_
  by_cases h0 : (i 2).val < 1024
  · rw [dif_pos h0, dif_pos h0]
  · rw [dif_neg h0, dif_neg h0]
    by_cases h1 : (i 2).val < 2048
    · rw [dif_pos h1, dif_pos h1]; exact rows16_apply mn _ _ _ _
    · rw [dif_neg h1, dif_neg h1]; exact rows16_apply hd _ _ _ _

end Cert.KernelIdeal.ExpandPay

end
-- ==== Proof.ExpandValue.lean ====
/-
  Region 1's result array: the input array, the mean array repeated down the rows and the hidden array
  repeated down the rows, joined along the last axis.

  The grid is 16 × 4: point `4 q + s` stages rows `512 s … 512 s + 511` of batch row `q` of the input, rows
  `q` of the mean and hidden arrays, and writes back block `(q, s, 0)` of the [16, 2048, 3072] result. Every
  point writes back, the blocks tile the result, and what a point writes is its block of the one joined array:
  an element's last coordinate falls in the same third on both sides, and in each third the element read is
  the same entry of the same array.
-/
import proofs.«100370_j42958262895310_1_alg».proof.Proof.Gen.KernelIdeal.Frame
import proofs.«100370_j42958262895310_1_alg».proof.Proof.MeanPieces
import proofs.«100370_j42958262895310_1_alg».proof.Proof.ExpandPay
import Idealize.ShloMosaic.Lib.Pipeline.Value

set_option maxRecDepth 16384

noncomputable section

namespace Cert.KernelIdeal.ExpandValue

open Cert.KernelIdeal Cert.KernelIdeal.Gen
open Idealize.ShloMosaic Idealize.ShloMosaic.TcCoe
open Idealize.SL Idealize.SL.Sem
open Idealize.ShloMosaic.Pipeline (Dat Cfg Window)
open Cert.KernelIdeal.MeanPieces (origin3)
open Cert.KernelIdeal.ExpandPay Cert.Concat3

variable (V : (c : Dev nD) → (b : Ref sig .tc) → Buf (Elt Ideal) ((c : Thread nD τ).loc b))

/-! ## Where the blocks sit -/

/-- At point `t`: the input block is `(t / 4, t % 4, 0)`, the mean and hidden rows are `(t / 4, 0, 0)`, the result
    block is `(t / 4, t % 4, 0)`. -/
theorem idx1 : ∀ t : Fin cfg1.N,
    (win1_0.index t (0 : Fin 3) = t.val / 4 ∧ win1_0.index t (1 : Fin 3) = t.val % 4 ∧ win1_0.index t (2 : Fin 3) = 0)
    ∧ (win1_1.index t (0 : Fin 3) = t.val / 4 ∧ win1_1.index t (1 : Fin 3) = 0 ∧ win1_1.index t (2 : Fin 3) = 0)
    ∧ (win1_2.index t (0 : Fin 3) = t.val / 4 ∧ win1_2.index t (1 : Fin 3) = 0 ∧ win1_2.index t (2 : Fin 3) = 0)
    ∧ (win1_3.index t (0 : Fin 3) = t.val / 4 ∧ win1_3.index t (1 : Fin 3) = t.val % 4 ∧ win1_3.index t (2 : Fin 3) = 0) :=
  (by decide +kernel : ∀ t : Fin grid1.N, _)

/-! ## The three staged blocks read where the result block's element says -/

section Blocks
variable (c : Dev nD) (t : Fin cfg1.N) (y : S1x512x3072.Idx)

/-- The result block's element `y` as an index of the result array. -/
abbrev spot : S16x2048x3072.Idx := ((cfg1.win 3).blk t).view.emb y

theorem spot0 : ((spot t y) 0).val = t.val / 4 := by
  obtain ⟨-, -, -, o0, -, -⟩ := idx1 t
  have hy : (y 0).val < 1 := (y 0).isLt
  show win1_3.index t (0 : Fin 3) * 1 + 1 * (y 0).val = t.val / 4
  omega

theorem spot1 : ((spot t y) 1).val = 512 * (t.val % 4) + (y 1).val := by
  obtain ⟨-, -, -, -, o1, -⟩ := idx1 t
  show win1_3.index t (1 : Fin 3) * 512 + 1 * (y 1).val = 512 * (t.val % 4) + (y 1).val
  omega

theorem spot2 : ((spot t y) 2).val = (y 2).val := by
  obtain ⟨-, -, -, -, -, o2⟩ := idx1 t
  show win1_3.index t (2 : Fin 3) * 3072 + 1 * (y 2).val = (y 2).val
  omega

/-- The staged input block at the element's row and column is the input array at the element's spot. -/
theorem in_block (v : ℕ) (hv : v < 1024) :
    iblk1 V c 0 t (at3 (y 0) (y 1) v hv) = V c main_arg2 (at3 ((spot t y) 0) ((spot t y) 1) v hv) := by
  show V c main_arg2 (((cfg1.win 0).blk t).view.emb (at3 (y 0) (y 1) v hv)) = _
  refine congrArg (V c main_arg2) (funext fun a => Fin.ext ?_)
  obtain ⟨⟨i0, i1, i2⟩, -, -, -⟩ := idx1 t
  have s0 := spot0 t y
  have s1 := spot1 t y
  have hy : (y 0).val < 1 := (y 0).isLt
  match a with
  | ⟨0, _⟩ =>
    show win1_0.index t (0 : Fin 3) * 1 + 1 * (y 0).val = ((spot t y) 0).val
    omega
  | ⟨1, _⟩ =>
    show win1_0.index t (1 : Fin 3) * 512 + 1 * (y 1).val = ((spot t y) 1).val
    omega
  | ⟨2, _⟩ =>
    show win1_0.index t (2 : Fin 3) * 1024 + 1 * v = v
    omega

/-- The staged mean row at a lane is the mean array at the element's batch row and that lane. -/
theorem mean_block (v : ℕ) (hv : v < 1024) :
    iblk1 V c 1 t (lane v hv) = V c main_v2 (rowLane ((spot t y) 0) v hv) := by
  show V c main_v2 (((cfg1.win 1).blk t).view.emb (lane v hv)) = _
  refine congrArg (V c main_v2) (funext fun a => Fin.ext ?_)
  obtain ⟨-, ⟨i0, i1, i2⟩, -, -⟩ := idx1 t
  have s0 := spot0 t y
  match a with
  | ⟨0, _⟩ =>
    show win1_1.index t (0 : Fin 3) * 1 + 1 * 0 = ((spot t y) 0).val
    omega
  | ⟨1, _⟩ =>
    show win1_1.index t (1 : Fin 3) * 1 + 1 * 0 = 0
    omega
  | ⟨2, _⟩ =>
    show win1_1.index t (2 : Fin 3) * 1024 + 1 * v = v
    omega

/-- The staged hidden row at a lane is the hidden array at the element's batch row and that lane. -/
theorem hidden_block (v : ℕ) (hv : v < 1024) :
    iblk1 V c 2 t (lane v hv) = V c main_v1 (rowLane ((spot t y) 0) v hv) := by
  show V c main_v1 (((cfg1.win 2).blk t).view.emb (lane v hv)) = _
  refine congrArg (V c main_v1) (funext fun a => Fin.ext ?_)
  obtain ⟨-, -, ⟨i0, i1, i2⟩, -⟩ := idx1 t
  have s0 := spot0 t y
  match a with
  | ⟨0, _⟩ =>
    show win1_2.index t (0 : Fin 3) * 1 + 1 * 0 = ((spot t y) 0).val
    omega
  | ⟨1, _⟩ =>
    show win1_2.index t (1 : Fin 3) * 1 + 1 * 0 = 0
    omega
  | ⟨2, _⟩ =>
    show win1_2.index t (2 : Fin 3) * 1024 + 1 * v = v
    omega

end Blocks

/-! ## What a point writes back, and the whole array -/

/-- WHAT POINT `t` WRITES BACK is block `t` of the joined array of the three arrays as the region finds them. -/
theorem flushed_expand (c : Dev nD) (t : Fin cfg1.N) :
    (dat1 V c).flushed 3 t
      = ((cfg1.win 3).blk t).view.read (Elt Ideal) (joined (V c main_arg2) (V c main_v2) (V c main_v1)) := by
  show (cfg1.win 3).cut (grid1.coords t) ((dat1 V c).after 3 t) = _
  rw [after1_3]
  unfold out1_3
  rw [View.canon_unit_zero origin3]
  simp only [View.ld_unit_zero (S := S1x512x1024) origin3, View.ld_unit_zero (S := S1x1x1024) origin3]
  funext y
  show k1_pay1 (F := Ideal) (iblk1 V c 0 t) (iblk1 V c 1 t) (iblk1 V c 2 t) y
    = joined (V c main_arg2) (V c main_v2) (V c main_v1) (spot t y)
  rw [pay_apply, joined_apply]
  have e2 := spot2 t y
  by_cases h0 : (y 2).val < 1024
  · rw [dif_pos h0, dif_pos (show ((spot t y) 2).val < 1024 by rw [e2]; exact h0)]
    exact (in_block V c t y _ h0).trans (congrArg (V c main_arg2) (at3_congr _ _ _ _ e2.symm))
  · rw [dif_neg h0, dif_neg (show ¬((spot t y) 2).val < 1024 by rw [e2]; exact h0)]
    by_cases h1 : (y 2).val < 2048
    · rw [dif_pos h1, dif_pos (show ((spot t y) 2).val < 2048 by rw [e2]; exact h1)]
      exact (mean_block V c t y _ _).trans (congrArg (V c main_v2) (rowLane_congr _ _ _ (by rw [e2])))
    · rw [dif_neg h1, dif_neg (show ¬((spot t y) 2).val < 2048 by rw [e2]; exact h1)]
      exact (hidden_block V c t y _ _).trans (congrArg (V c main_v1) (rowLane_congr _ _ _ (by rw [e2])))

/-- An index of the result array is in point `t`'s block iff each coordinate is in the block's range on its axis. -/
theorem mem_blk_res (t : Fin cfg1.N) (i : S16x2048x3072.Idx) :
    i ∈ ((cfg1.win 3).blk t).view.set ↔ ∀ a : Fin 3, win1_3.index t a * S1x512x3072.size a ≤ (i a).val
      ∧ (i a).val < win1_3.index t a * S1x512x3072.size a + S1x512x3072.size a := by
  show i ∈ ((View.whole main_v3).slice (win1_3.rect t)).set ↔ _
  rw [View.set_slice_whole, Rect.mem_set_unit]
  exact Iff.rfl

/-- Entry `(b, r, v)` of the result is in the block of point `4 b + r / 512`, and every point writes back. -/
theorem cover_expand (i : S16x2048x3072.Idx) :
    ∃ t : Fin cfg1.N, (cfg1.win 3).flush t = true ∧ i ∈ ((cfg1.win 3).blk t).view.set := by
  have hi0 : (i 0).val < 16 := (i 0).isLt
  have hi1 : (i 1).val < 2048 := (i 1).isLt
  have hi2 : (i 2).val < 3072 := (i 2).isLt
  have hN : 4 * (i 0).val + (i 1).val / 512 < cfg1.N := lt_of_lt_of_eq (by omega) (show cfg1.N = 64 from N_1).symm
  refine ⟨⟨4 * (i 0).val + (i 1).val / 512, hN⟩, flush1_3 _, ?_⟩
  rw [mem_blk_res]
  obtain ⟨-, -, -, o0, o1, o2⟩ := idx1 ⟨4 * (i 0).val + (i 1).val / 512, hN⟩
  dsimp only at o0 o1 o2
  intro a
  match a with
  | ⟨0, _⟩ =>
    show win1_3.index ⟨4 * (i 0).val + (i 1).val / 512, hN⟩ (0 : Fin 3) * 1 ≤ (i 0).val
      ∧ (i 0).val < win1_3.index ⟨4 * (i 0).val + (i 1).val / 512, hN⟩ (0 : Fin 3) * 1 + 1
    omega
  | ⟨1, _⟩ =>
    show win1_3.index ⟨4 * (i 0).val + (i 1).val / 512, hN⟩ (1 : Fin 3) * 512 ≤ (i 1).val
      ∧ (i 1).val < win1_3.index ⟨4 * (i 0).val + (i 1).val / 512, hN⟩ (1 : Fin 3) * 512 + 512
    omega
  | ⟨2, _⟩ =>
    show win1_3.index ⟨4 * (i 0).val + (i 1).val / 512, hN⟩ (2 : Fin 3) * 3072 ≤ (i 2).val
      ∧ (i 2).val < win1_3.index ⟨4 * (i 0).val + (i 1).val / 512, hN⟩ (2 : Fin 3) * 3072 + 3072
    omega

/-- THE RESULT ARRAY OF REGION 1 after its run is the joined array of the three arrays as the region found them. -/
theorem expand_final (c : Dev nD) :
    (dat1 V c).arrAt 3 cfg1.N = joined (V c main_arg2) (V c main_v2) (V c main_v1) :=
  (dat1 V c).arrAt_eq_of_cover 3 _ (fun t _ => flushed_expand V c t) cover_expand

end Cert.KernelIdeal.ExpandValue

end
-- ==== Proof.KernelValue.lean ====
/-
  The idealized kernel's result as one function of its arguments: the reference's own last stage.

  The run's boundary contents are a fold through @main: the launch memory, then the two host operations
  (the hidden rows joined and given a unit axis), then region 0's result array at what its write-backs
  leave, then region 1's. Read back through that fold: region 1's result is the joined array of the input,
  of region 0's result and of the hidden array as region 1 finds them; region 0's result is the mean stage
  of the input as region 0 finds it; the input is never written, so it is the launch contents at both
  entries; and the hidden array is the host operations' term of the two hidden arguments. Together that is
  the reference's concatenation stage of the three arguments.
-/
import proofs.«100370_j42958262895310_1_alg».proof.Proof.KernelRun
import proofs.«100370_j42958262895310_1_alg».proof.Proof.MeanValue
import proofs.«100370_j42958262895310_1_alg».proof.Proof.ExpandValue
import proofs.«100370_j42958262895310_1_alg».proof.Proof.Gen.ReferenceIdeal.Read
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.ShloMosaic.StableHlo
open Idealize.SL Idealize.SL.Sem
open Cert.ReferenceIdeal (Read.val_main_v4 Read.val_main_v6 Read.val_main_v8)

variable (m : (ℓ : Loc nD τ sig) → Buf (Elt Ideal) ℓ) (ρ : Dev nD → PrngReg)

/-- The input array at region 1's entry is the launch contents: region 1 only reads it. -/
theorem input_at_1 (c : Dev nD) : W2 m ρ c (Proc.devRef .tc main_arg2) = m ((c : Thread nD τ).loc main_arg2) := by
  have e : W3 m ρ c (Proc.devRef .tc main_arg2) = W2 m ρ c (Proc.devRef .tc main_arg2) :=
    (W3_arr m ρ c 0).trans (((dat1 (V2 m ρ) c).arrAt_in 0 rfl _).trans (A_eq1 (V2 m ρ) c 0))
  exact e.symm.trans (W3_main_arg2 m ρ c)

/-- The input array at region 0's entry is the launch contents: region 0 only reads it. -/
theorem input_at_0 (c : Dev nD) : W1 m ρ c (Proc.devRef .tc main_arg2) = m ((c : Thread nD τ).loc main_arg2) := by
  have e : W2 m ρ c (Proc.devRef .tc main_arg2) = W1 m ρ c (Proc.devRef .tc main_arg2) :=
    (W2_arr m ρ c 0).trans (((dat0 (V1 m ρ) c).arrAt_in 0 rfl _).trans (A_eq0 (V1 m ρ) c 0))
  exact e.symm.trans (input_at_1 m ρ c)

/-- The hidden array the host operations write before the regions is the reference's hidden stage of the two
    hidden arguments: the same two operations. -/
theorem hidden_at_0 (c : Dev nD) :
    W1 m ρ c (Proc.devRef .tc main_v1)
      = Read.val_main_v6 (F := Ideal) (m ((c : Thread nD τ).loc main_arg0)) (m ((c : Thread nD τ).loc main_arg1)) := by
  show StableHlo.after hostOps0 (W0 m ρ c) (Proc.devRef .tc main_v1) = _
  dsimp only [hostOps0]
  after_results
  rfl

/-- THE RESULT: the last boundary's contents at the result array are the reference's concatenation stage of the
    three arguments. -/
theorem result_eq (c : Dev nD) :
    W3 m ρ c (Proc.devRef .tc main_v3)
      = Read.val_main_v8 (F := Ideal) (m ((c : Thread nD τ).loc main_arg0)) (m ((c : Thread nD τ).loc main_arg1))
          (m ((c : Thread nD τ).loc main_arg2)) := by
  have e3 : W3 m ρ c (Proc.devRef .tc main_v3) = (dat1 (V2 m ρ) c).arrAt 3 cfg1.N := W3_arr m ρ c 3
  have a2 : V2 m ρ c main_arg2 = m ((c : Thread nD τ).loc main_arg2) := input_at_1 m ρ c
  have a1 : V2 m ρ c main_v2 = Read.val_main_v4 (F := Ideal) (m ((c : Thread nD τ).loc main_arg2)) := by
    have e : W2 m ρ c (Proc.devRef .tc main_v2) = (dat0 (V1 m ρ) c).arrAt 1 cfg0.N := W2_arr m ρ c 1
    have i0 : V1 m ρ c main_arg2 = m ((c : Thread nD τ).loc main_arg2) := input_at_0 m ρ c
    exact (e.trans (MeanValue.mean_final (V1 m ρ) c)).trans (congrArg (Read.val_main_v4 (F := Ideal)) i0)
  have a0 : V2 m ρ c main_v1
      = Read.val_main_v6 (F := Ideal) (m ((c : Thread nD τ).loc main_arg0)) (m ((c : Thread nD τ).loc main_arg1)) :=
    (W2_of_ne m ρ c main_v1 (by decide)).trans (hidden_at_0 m ρ c)
  refine (e3.trans (ExpandValue.expand_final (V2 m ρ) c)).trans ?_
  rw [a2, a1, a0]
  rfl

/-- The idealized kernel's run with its result named: every weakly fair execution terminates, nothing faulting, the
    result array at the reference's concatenation stage of the arguments' launch contents, the arguments unchanged. -/
theorem run : θ_run defs (onTc (τ := τ) (main (F := Ideal))) ⟨m, fun _ => 0, ρ⟩ (fun r => ∀ c : Dev nD,
      r.2.mem ((c.tc : Thread nD τ).loc main_v3)
        = Read.val_main_v8 (F := Ideal) (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (Named.run_named m ρ)

end Cert.KernelIdeal.Result

end
-- ==== Proof.lean ====
/-
  The kernel computes, for `inp : f32[16, 2048, 1024]` and two hidden arrays `f32[16, 512]`, the array
  `out[b, l, :] = inp[b, l, :] ‖ mean_l inp[b, :, :] ‖ hidden0[b, :] ‖ hidden1[b, :]` of shape [16, 2048, 3072], in
  two pipelined kernels: the first accumulates each batch row's column sums over four tiles of 512 rows and
  scales the total by 2⁻¹¹ at the last tile, the second joins each tile of the input with the mean row and the
  hidden row repeated down the tile. The reference is the same expression with `sum / 2048` for the mean.

  At the exact instance the two agree with no finiteness asked of the inputs: adding the four tiles' partial
  sums to zero in order is adding the whole column to zero (addition of extended reals is commutative and
  associative), the float 2⁻¹¹ is exactly 1/2048, and dividing an extended real by 2048 is multiplying it by
  1/2048. Everything else is layout: which entry of which array each element of the result reads.

  The three frames are the generated ones (the reference's is its generated run with the result dropped); the
  idealization rewrote nothing, so `preserves` is trivial; `algebraic` puts the kernel's run with its result
  named (Proof/KernelValue.lean) beside the reference's generated run, both at the reference's own last stage.
-/
import proofs.«100370_j42958262895310_1_alg».proof.Defs
import proofs.«100370_j42958262895310_1_alg».proof.Proof.Gen.Kernel
import proofs.«100370_j42958262895310_1_alg».proof.Proof.Gen.Kernel.Frame
import proofs.«100370_j42958262895310_1_alg».proof.Proof.Gen.KernelIdeal
import proofs.«100370_j42958262895310_1_alg».proof.Proof.Gen.KernelIdeal.Frame
import proofs.«100370_j42958262895310_1_alg».proof.Proof.Gen.ReferenceIdeal
import proofs.«100370_j42958262895310_1_alg».proof.Proof.Gen.ReferenceIdeal.Run
import proofs.«100370_j42958262895310_1_alg».proof.Proof.Gen.ReferenceIdeal.Read
import proofs.«100370_j42958262895310_1_alg».proof.Proof.Gen.Pre_finite_inputs
import proofs.«100370_j42958262895310_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the reference's concatenation stage of arguments that agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.Read.val_main_v8_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
